-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4096x4096 .f32) (main_arg1 : FVec F S11008x4096 .f32) (main_arg2 : FVec F S11008x1 .f32) (main_arg3 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x1 .f32 := Host.absf main_arg2
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4096x4096 : Shape := ⟨2, ![4096, 4096]⟩
abbrev S11008x4096 : Shape := ⟨2, ![11008, 4096]⟩
abbrev S11008x1 : Shape := ⟨2, ![11008, 1]⟩
abbrev S11008 : Shape := ⟨1, ![11008]⟩
abbrev S1x11008 : Shape := ⟨2, ![1, 11008]⟩
abbrev S4096x11008 : Shape := ⟨2, ![4096, 11008]⟩
abbrev S512x4096 : Shape := ⟨2, ![512, 4096]⟩
abbrev S256x4096 : Shape := ⟨2, ![256, 4096]⟩
abbrev S256x1 : Shape := ⟨2, ![256, 1]⟩
abbrev S1x256 : Shape := ⟨2, ![1, 256]⟩
abbrev S512x256 : Shape := ⟨2, ![512, 256]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S11008x4096, .f32⟩
  | .hbm, ⟨2, _⟩ => ⟨S11008x1, .f32⟩
  | .hbm, ⟨3, _⟩ => ⟨S11008, .f32⟩
  | .hbm, ⟨4, _⟩ => ⟨S1x11008, .f32⟩
  | .hbm, ⟨5, _⟩ => ⟨S4096x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .f32⟩
  | .local _ .vmem, ⟨3, _⟩ => ⟨S256x4096, .f32⟩
  | .local _ .vmem, ⟨4, _⟩ => ⟨S256x1, .f32⟩
  | .local _ .vmem, ⟨5, _⟩ => ⟨S256x1, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S11008_S1x11008 : S11008.ShapeCasts S1x11008
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  broadcasts_S256x1_S256x4096 : S256x1.Broadcasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .f32 = 32 ∨ (Rect.block (s := S11008x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x11008.size a
  hwx0_4 : ∀ i : grid0.Coords, EltTy.bits .f32 = 32 ∨ (Rect.block (s := S4096x11008) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S11008x4096 : Shape := ⟨2, ![11008, 4096]⟩
abbrev S11008x1 : Shape := ⟨2, ![11008, 1]⟩
abbrev S11008 : Shape := ⟨1, ![11008]⟩
abbrev S4096x11008 : Shape := ⟨2, ![4096, 11008]⟩
abbrev S1x11008 : Shape := ⟨2, ![1, 11008]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x4096, .f32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S11008x4096, .f32⟩
  | .hbm, ⟨6, _⟩ => ⟨S4096x11008, .f32⟩
  | .hbm, ⟨7, _⟩ => ⟨S4096x11008, .f32⟩
  | .hbm, ⟨8, _⟩ => ⟨S1x11008, .f32⟩
  | .hbm, ⟨9, _⟩ => ⟨S4096x11008, .f32⟩
  | .hbm, ⟨10, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  transposes_S11008x4096_S4096x11008_1_0 : S11008x4096.Transposes [1, 0] S4096x11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S4096x11008_S4096x11008_1_0_0_1_n_n_wf : DotDims.WF S4096x4096 S4096x11008 S4096x11008 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.LibDotReadRhsT.lean ====
/- A matrix product's contraction sum re-indexed by the contracted coordinate, for the product of an m x k matrix by
   the transpose of an n x k matrix: both operands are contracted along their second axis. -/
import Idealize.ShloMosaic.Lib.ValueIdx
import Idealize.ShloMosaic.PureOps.Ideal.Laws

noncomputable section

open scoped BigOperators

namespace Cert.DotReadRhsT

open Idealize.ShloMosaic Idealize.ShloMosaic.ValueIdx

/-- The right operand transposed: the contraction at (a, b) runs over A (a, c) * B (b, c). -/
theorem sum_contr_rhsT {m k n : Nat}
    (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (a : Fin m) (b : Fin n) :
    ∑ q : (⟨[1], [1], [0], [0], [], [], w⟩ : DotDims ⟨2, ![m, k]⟩ ⟨2, ![n, k]⟩ ⟨2, ![m, n]⟩).contr.Idx,
        A ((⟨[1], [1], [0], [0], [], [], w⟩ : DotDims ⟨2, ![m, k]⟩ ⟨2, ![n, k]⟩ ⟨2, ![m, n]⟩).lhsIdx (ix2 a b) q)
          * B ((⟨[1], [1], [0], [0], [], [], w⟩ : DotDims ⟨2, ![m, k]⟩ ⟨2, ![n, k]⟩ ⟨2, ![m, n]⟩).rhsIdx (ix2 a b) q)
      = ∑ c : Fin k, A (ix2 a c) * B (ix2 b c) := by
  rw [← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.DotReadRhsT

end
-- ==== Proof.Payload.lean ====
/- One grid point's arithmetic, read at an element of the output block: the body multiplies the 256-row weight block by its
   column of scales, contracts the token block's features against it (both operands along their second axis), and adds the
   row of biases. At the ideal values the format changes are the identity, so element (p, q) of the stored block is
   `Σ_k x (p, k) · (w (q, k) · s (q, 0)) + b (0, q)`. -/
import proofs.«160306_j29884382445885_1_alg».proof.Proof.Gen.KernelIdeal.Skeleton
import proofs.«160306_j29884382445885_1_alg».proof.Proof.LibDotReadRhsT
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.DequantLinear.Body

open Cert.KernelIdeal Cert.KernelIdeal.Gen Idealize.ShloMosaic Idealize.ShloMosaic.ValueIdx

/-- A column of per-row values broadcast along the row reads, at (q, k), the row's one value. -/
theorem column_broadcast_apply {a b : ℕ} (hb : b ≠ 1) (v : (⟨2, ![a, 1]⟩ : Shape).Idx → EReal)
    (h : (⟨2, ![a, 1]⟩ : Shape).Broadcasts ⟨2, ![a, b]⟩) (q : Fin a) (k : Fin b) :
    broadcastTo ⟨2, ![a, b]⟩ v h (ix2 q k) = v (ix2 q (0 : Fin 1)) := by
  refine broadcastTo_apply v h (ix2 q k) (ix2 q (0 : Fin 1)) fun ax => ?_
  match ax with
  | ⟨0, _⟩ =>
    show q.val = if a = 1 then 0 else q.val
    split
    · have := q.isLt; omega
    · rfl
  | ⟨1, _⟩ =>
    show 0 = if (1 : ℕ) = 1 then 0 else k.val
    rw [if_pos rfl]

/-- The contraction of the token block with the scaled weight block, both along their second axis, at element (p, q). -/
theorem contraction_apply (A : FVec Ideal S512x4096 .bf16) (B : FVec Ideal S256x4096 .bf16) (p : Fin 512) (q : Fin 256) :
    matmul dot_S512x4096_S256x4096_S512x256_1_1_0_0_n_n none A B (constant (F := Ideal) S512x256 .f32 0x00000000#32) (ix2 p q)
      = ∑ k : Fin 4096, A (ix2 p k) * B (ix2 q k) := by
  simp only [matmul]
  rw [Ideal.matmul_constant_zero_apply]
  exact Cert.DotReadRhsT.sum_contr_rhsT dot_S512x4096_S256x4096_S512x256_1_1_0_0_n_n_wf A B p q

/-- The stored block at element (p, q). -/
theorem payload_apply (x0 : Vec Ideal S512x4096 .f32) (x1 : Vec Ideal S256x4096 .f32) (x2 : Vec Ideal S256x1 .f32)
    (x3 : Vec Ideal S1x256 .f32) (p : Fin 512) (q : Fin 256) :
    k0_pay1 (F := Ideal) x0 x1 x2 x3 (ix2 p q)
      = (∑ k : Fin 4096, x0 (ix2 p k) * (x1 (ix2 q k) * x2 (ix2 q (0 : Fin 1)))) + x3 (ix2 (0 : Fin 1) q) := by
  unfold k0_pay1
  refine (addf_apply _ _ _).trans ?_
  refine congrArg₂ (· + ·) ?_ ?_
  · refine (contraction_apply _ _ p q).trans ?_
    refine Finset.sum_congr rfl fun k _ => ?_
    refine congrArg₂ (· * ·) rfl ?_
    refine (mulf_apply _ _ _).trans ?_
    exact congrArg₂ (· * ·) rfl (column_broadcast_apply (by decide) x2 broadcasts_S256x1_S256x4096 q k)
  · rw [shapeCast_self]
    exact broadcastTo_1b_ab_apply x3 broadcasts_S1x256_S512x256 p q

end Cert.DequantLinear.Body

end
-- ==== Proof.Spec.lean ====
/- The function both programs compute, on the extended reals: a linear layer whose weight matrix is stored as integer-valued
   entries with one scale per output channel. Row `j` of the weight is `w (j, ·) · s (j, 0)`, and the layer is
   `y (i, j) = Σ_k x (i, k) · (w (j, k) · s (j, 0)) + b j`, the contraction running over the 4096 input features. -/
import Idealize.ShloMosaic.Lib.ValueIdx
import Idealize.ShloMosaic.PureOps.Ideal.Laws

noncomputable section

open scoped BigOperators

namespace Cert.DequantLinear

open Idealize.ShloMosaic Idealize.ShloMosaic.ValueIdx

/-- The dequantized linear layer: token `i` against output channel `j`, the weight row scaled by its channel's scale inside
    the sum (no factor is moved across the sum, so no finiteness is needed), the channel's bias added last. -/
def linear (x : (⟨2, ![4096, 4096]⟩ : Shape).Idx → EReal) (w : (⟨2, ![11008, 4096]⟩ : Shape).Idx → EReal)
    (s : (⟨2, ![11008, 1]⟩ : Shape).Idx → EReal) (b : (⟨1, ![11008]⟩ : Shape).Idx → EReal) :
    (⟨2, ![4096, 11008]⟩ : Shape).Idx → EReal :=
  fun i => (∑ k : Fin 4096, x (ix2 (i 0) k) * (w (ix2 (i 1) k) * s (ix2 (i 1) (0 : Fin 1)))) + b (ix1 (i 1))

/-- The same read at coordinates. -/
theorem linear_ix2 (x : (⟨2, ![4096, 4096]⟩ : Shape).Idx → EReal) (w : (⟨2, ![11008, 4096]⟩ : Shape).Idx → EReal)
    (s : (⟨2, ![11008, 1]⟩ : Shape).Idx → EReal) (b : (⟨1, ![11008]⟩ : Shape).Idx → EReal) (r : Fin 4096) (c : Fin 11008) :
    linear x w s b (ix2 r c) = (∑ k : Fin 4096, x (ix2 r k) * (w (ix2 c k) * s (ix2 c (0 : Fin 1)))) + b (ix1 c) := rfl

end Cert.DequantLinear

end
-- ==== Proof.Blocks.lean ====
/- From grid points to the whole output array. The grid is 8 token tiles by 43 channel tiles; point `t` is tile
   (t / 43, t % 43), reads token rows `(t / 43)·512 + p`, weight rows, scales and biases `(t % 43)·256 + q`, and writes back
   the 512 × 256 block of the output at that tile. Each block written is the dequantized linear layer restricted to the
   tile, and the 344 tiles cover the 4096 × 11008 output, so the array ends holding the layer. -/
import proofs.«160306_j29884382445885_1_alg».proof.Proof.Gen.KernelIdeal.Value
import proofs.«160306_j29884382445885_1_alg».proof.Proof.Payload
import proofs.«160306_j29884382445885_1_alg».proof.Proof.Spec
import Idealize.ShloMosaic.Lib.Pipeline.Value
import Idealize.ShloMosaic.Lib.StableHlo.Run
import Idealize.ShloMosaic.Lib.ValueLayout

noncomputable section

open scoped BigOperators

namespace Cert.DequantLinear.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps over the 344 points: the output's tile is (t / 43, t % 43); the token window follows the first
    coordinate, the weight, scale and bias windows the second, each at block 0 on its other axis. -/
theorem tiles : ∀ t : Fin cfg0.N,
    win0_4.index t (0 : Fin 2) = t.val / 43 ∧ win0_4.index t (1 : Fin 2) = t.val % 43
    ∧ win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = 0 ∧ win0_3.index t (1 : Fin 2) = t.val % 43 :=
  (by decide +kernel : ∀ t : Fin grid0.N, _)

theorem point_lt (t : Fin cfg0.N) : t.val < 344 := lt_of_lt_of_eq t.isLt N_0

/-- The bias as the region finds it: the host's reshape of the bias vector to one row. -/
theorem bias_row (c : Dev nD) :
    (V m c main_v0 : S1x11008.Idx → EReal) = shapeCast S1x11008 (m ((c : Thread nD τ).loc main_arg3)) shapeCasts_S11008_S1x11008 := by
  dsimp only [V, hostOps0]; after_results; rfl

/-- The dequantized linear layer of the arrays as the region finds them. -/
def layer (c : Dev nD) : S4096x11008.Idx → EReal :=
  Cert.DequantLinear.linear (V m c main_arg0) (V m c main_arg1) (V m c main_arg2) (m ((c : Thread nD τ).loc main_arg3))

/-- The token block at point `t`: row `p` of the block is token `(t / 43)·512 + p`, all features. -/
theorem token_block (c : Dev nD) (t : Fin cfg0.N) (p : Fin 512) (k : Fin 4096) (r : Fin 4096) (hr : r.val = t.val / 43 * 512 + p.val) :
    iblk m c 0 t (ix2 p k) = V m c main_arg0 (ix2 r k) := by
  show V m c main_arg0 (((cfg0.win 0).blk t).view.emb (ix2 p k)) = V m c main_arg0 (ix2 r k)
  refine congrArg _ (funext fun a => Fin.ext ?_)
  obtain ⟨-, -, e0, e1, -⟩ := tiles t
  match a with
  | ⟨0, _⟩ => show win0_0.index t (0 : Fin 2) * 512 + 1 * p.val = r.val; omega
  | ⟨1, _⟩ => show win0_0.index t (1 : Fin 2) * 4096 + 1 * k.val = k.val; omega

/-- The weight block at point `t`: row `q` of the block is channel `(t % 43)·256 + q`, all features. -/
theorem weight_block (c : Dev nD) (t : Fin cfg0.N) (q : Fin 256) (k : Fin 4096) (s : Fin 11008) (hs : s.val = t.val % 43 * 256 + q.val) :
    iblk m c 1 t (ix2 q k) = V m c main_arg1 (ix2 s k) := by
  show V m c main_arg1 (((cfg0.win 1).blk t).view.emb (ix2 q k)) = V m c main_arg1 (ix2 s k)
  refine congrArg _ (funext fun a => Fin.ext ?_)
  obtain ⟨-, -, -, -, e0, e1, -⟩ := tiles t
  match a with
  | ⟨0, _⟩ => show win0_1.index t (0 : Fin 2) * 256 + 1 * q.val = s.val; omega
  | ⟨1, _⟩ => show win0_1.index t (1 : Fin 2) * 4096 + 1 * k.val = k.val; omega

/-- The scale block at point `t`: its row `q` is channel `(t % 43)·256 + q`'s scale. -/
theorem scale_block (c : Dev nD) (t : Fin cfg0.N) (q : Fin 256) (s : Fin 11008) (hs : s.val = t.val % 43 * 256 + q.val) :
    iblk m c 2 t (ix2 q (0 : Fin 1)) = V m c main_arg2 (ix2 s (0 : Fin 1)) := by
  show V m c main_arg2 (((cfg0.win 2).blk t).view.emb (ix2 q (0 : Fin 1))) = V m c main_arg2 (ix2 s (0 : Fin 1))
  refine congrArg _ (funext fun a => Fin.ext ?_)
  obtain ⟨-, -, -, -, -, -, e0, e1, -⟩ := tiles t
  match a with
  | ⟨0, _⟩ => show win0_2.index t (0 : Fin 2) * 256 + 1 * q.val = s.val; omega
  | ⟨1, _⟩ => show win0_2.index t (1 : Fin 2) * 1 + 1 * 0 = 0; omega

/-- The bias block at point `t`: its entry `q` is channel `(t % 43)·256 + q`'s bias. -/
theorem bias_block (c : Dev nD) (t : Fin cfg0.N) (q : Fin 256) (s : Fin 11008) (hs : s.val = t.val % 43 * 256 + q.val) :
    iblk m c 3 t (ix2 (0 : Fin 1) q) = m ((c : Thread nD τ).loc main_arg3) (ix1 s) := by
  have hb : V m c main_v0 (ix2 (0 : Fin 1) s) = m ((c : Thread nD τ).loc main_arg3) (ix1 s) := by
    rw [bias_row]
    exact shapeCast_a_1a_apply _ shapeCasts_S11008_S1x11008 (0 : Fin 1) s
  refine Eq.trans ?_ hb
  show V m c main_v0 (((cfg0.win 3).blk t).view.emb (ix2 (0 : Fin 1) q)) = V m c main_v0 (ix2 (0 : Fin 1) s)
  refine congrArg _ (funext fun a => Fin.ext ?_)
  obtain ⟨-, -, -, -, -, -, -, -, e0, e1⟩ := tiles t
  match a with
  | ⟨0, _⟩ => show win0_3.index t (0 : Fin 2) * 1 + 1 * 0 = 0; omega
  | ⟨1, _⟩ => show win0_3.index t (1 : Fin 2) * 256 + 1 * q.val = s.val; omega

/-- Element (p, q) of the output block at point `t` sits at (token, channel) = ((t / 43)·512 + p, (t % 43)·256 + q). -/
theorem out_block (t : Fin cfg0.N) (p : Fin 512) (q : Fin 256) (r : Fin 4096) (s : Fin 11008)
    (hr : r.val = t.val / 43 * 512 + p.val) (hs : s.val = t.val % 43 * 256 + q.val) :
    ((cfg0.win 4).blk t).view.emb (ix2 p q) = ix2 r s := by
  refine funext fun a => Fin.ext ?_
  obtain ⟨e0, e1, -⟩ := tiles t
  match a with
  | ⟨0, _⟩ => show win0_4.index t (0 : Fin 2) * 512 + 1 * p.val = r.val; omega
  | ⟨1, _⟩ => show win0_4.index t (1 : Fin 2) * 256 + 1 * q.val = s.val; omega

/-- What point `t` writes back is its tile of the layer. -/
theorem flushed_eq (c : Dev nD) (t : Fin cfg0.N) :
    (dats m 0 c).flushed 4 t = ((cfg0.win 4).blk t).view.read (Elt Ideal) (layer m c) := by
  rw [Cert.KernelIdeal.Value.flushed4]
  unfold out0_4
  rw [View.canon_unit_zero origin]
  simp only [View.ld_unit_zero (S := S512x4096) origin, View.ld_unit_zero (S := S256x4096) origin,
    View.ld_unit_zero (S := S256x1) origin, View.ld_unit_zero (S := S1x256) origin]
  funext j
  obtain ⟨p, q, rfl⟩ : ∃ (p : Fin 512) (q : Fin 256), j = ix2 p q := ⟨j 0, j 1, eq_ix2 j⟩
  have ht := point_lt t
  obtain ⟨r, hr⟩ : ∃ r : Fin 4096, r.val = t.val / 43 * 512 + p.val := ⟨⟨t.val / 43 * 512 + p.val, by omega⟩, rfl⟩
  obtain ⟨s, hs⟩ : ∃ s : Fin 11008, s.val = t.val % 43 * 256 + q.val := ⟨⟨t.val % 43 * 256 + q.val, by omega⟩, rfl⟩
  show k0_pay1 (F := Ideal) (iblk m c 0 t) (iblk m c 1 t) (iblk m c 2 t) (iblk m c 3 t) (ix2 p q)
    = layer m c (((cfg0.win 4).blk t).view.emb (ix2 p q))
  rw [out_block t p q r s hr hs]
  refine (Cert.DequantLinear.Body.payload_apply _ _ _ _ p q).trans ?_
  unfold layer
  rw [Cert.DequantLinear.linear_ix2]
  refine congrArg₂ (· + ·) (Finset.sum_congr rfl fun k _ => ?_) (bias_block m c t q s hs)
  rw [token_block m c t p k r hr, weight_block m c t q k s hs, scale_block m c t q s hs]

/-- An index of the output is in point `t`'s block iff each coordinate lies in the tile's range on its axis. -/
theorem mem_block (t : Fin cfg0.N) (i : S4096x11008.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v1).slice (win0_4.rect t)).set ↔ _
  rw [View.set_slice_whole, Rect.mem_set_unit]
  exact Iff.rfl

/-- Every output index lies in the tile of the point (row / 512)·43 + column / 256. -/
theorem covered (i : S4096x11008.Idx) :
    ∃ t : Fin cfg0.N, (cfg0.win 4).flush t = true ∧ i ∈ ((cfg0.win 4).blk t).view.set := by
  have hi0 : (i 0).val < 4096 := (i 0).isLt
  have hi1 : (i 1).val < 11008 := (i 1).isLt
  have hN : (i 0).val / 512 * 43 + (i 1).val / 256 < cfg0.N := lt_of_lt_of_eq (by omega) N_0.symm
  refine ⟨⟨_, hN⟩, flush0_4 _, ?_⟩
  rw [mem_block]
  obtain ⟨e0, e1, -⟩ := tiles ⟨_, hN⟩
  have e0' : win0_4.index ⟨_, hN⟩ (0 : Fin 2) = ((i 0).val / 512 * 43 + (i 1).val / 256) / 43 := e0
  have e1' : win0_4.index ⟨_, hN⟩ (1 : Fin 2) = ((i 0).val / 512 * 43 + (i 1).val / 256) % 43 := e1
  intro a
  match a with
  | ⟨0, _⟩ =>
    show win0_4.index ⟨_, hN⟩ (0 : Fin 2) * 512 ≤ (i 0).val ∧ (i 0).val < win0_4.index ⟨_, hN⟩ (0 : Fin 2) * 512 + 512
    omega
  | ⟨1, _⟩ =>
    show win0_4.index ⟨_, hN⟩ (1 : Fin 2) * 256 ≤ (i 1).val ∧ (i 1).val < win0_4.index ⟨_, hN⟩ (1 : Fin 2) * 256 + 256
    omega

/-- The output array after the run is the layer of the arrays as the region finds them, which are the arguments. -/
theorem final (c : Dev nD) : (dats m 0 c).arrAt 4 cfg0.N
    = Cert.DequantLinear.linear (m ((c : Thread nD τ).loc main_arg0)) (m ((c : Thread nD τ).loc main_arg1))
        (m ((c : Thread nD τ).loc main_arg2)) (m ((c : Thread nD τ).loc main_arg3)) := by
  rw [(dats m 0 c).arrAt_eq_of_cover 4 (layer m c) (fun t _ => flushed_eq m c t) covered]
  unfold layer
  rw [V_main_arg0, V_main_arg1, V_main_arg2]

/-- Every weakly fair execution of the kernel's program ends with the result array at the layer of the arguments, the
    arguments unchanged. -/
theorem run : θ_run defs (onTc (τ := τ) (main (F := Ideal))) ⟨m, fun _ => 0, ρ⟩ fun r => ∀ c : Dev nD,
      r.2.mem ((c : Thread nD τ).loc main_v1)
        = Cert.DequantLinear.linear (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.DequantLinear.Kernel

end
-- ==== Proof.RefValue.lean ====
/- The reference, read one host operation at a time: it scales each weight row by its channel's scale, transposes, contracts
   the tokens' features against the transposed weight, and adds the bias broadcast over tokens. Index by index that is the
   dequantized linear layer of Spec.lean. -/
import proofs.«160306_j29884382445885_1_alg».proof.Proof.Gen.ReferenceIdeal.Run
import proofs.«160306_j29884382445885_1_alg».proof.Proof.Gen.ReferenceIdeal.Read
import proofs.«160306_j29884382445885_1_alg».proof.Proof.Spec

noncomputable section

open scoped BigOperators

namespace Cert.DequantLinear.Ref

open Cert.ReferenceIdeal Cert.ReferenceIdeal.Gen Cert.ReferenceIdeal.Read Idealize.ShloMosaic Idealize.ShloMosaic.ValueIdx

/-- The product's left factor at contraction place `k` is token `r`'s feature `k`. -/
theorem lidx_eq (r : Fin 4096) (c : Fin 11008) (k : Fin 4096) : lidx_main_v3 (ix2 r c) k = ix2 r k :=
  funext fun a => Fin.ext (by match a with | ⟨0, _⟩ => rfl | ⟨1, _⟩ => rfl)

/-- Its right factor, read back through the transpose, is the weight's entry at (channel `c`, feature `k`). -/
theorem ridx_eq (r : Fin 4096) (c : Fin 11008) (k : Fin 4096) : idx_main_v2 (ridx_main_v3 (ix2 r c) k) = ix2 c k :=
  funext fun a => Fin.ext (by match a with | ⟨0, _⟩ => rfl | ⟨1, _⟩ => rfl)

/-- The scale broadcast along the features reads the channel's one scale. -/
theorem sidx_eq (c : Fin 11008) (k : Fin 4096) : idx_main_v0 (ix2 c k) = ix2 c (0 : Fin 1) :=
  funext fun a => Fin.ext (by match a with | ⟨0, _⟩ => rfl | ⟨1, _⟩ => rfl)

/-- The bias broadcast over the tokens reads the channel's bias. -/
theorem bidx_eq (r : Fin 4096) (c : Fin 11008) : idx_main_v4 (idx_main_v5 (ix2 r c)) = ix1 c :=
  funext fun a => Fin.ext (by match a with | ⟨0, _⟩ => rfl)

/-- The reference's last stage is the dequantized linear layer. -/
theorem ref_eq (x0 : (⟨S4096x4096, .f32⟩ : BufTy).Contents (Elt Ideal)) (x1 : (⟨S11008x4096, .f32⟩ : BufTy).Contents (Elt Ideal))
    (x2 : (⟨S11008x1, .f32⟩ : BufTy).Contents (Elt Ideal)) (x3 : (⟨S11008, .f32⟩ : BufTy).Contents (Elt Ideal)) :
    val_main_v6 (F := Ideal) x0 x1 x2 x3 = linear x0 x1 x2 x3 := by
  funext i
  obtain ⟨r, c, rfl⟩ : ∃ (r : Fin 4096) (c : Fin 11008), i = ix2 r c := ⟨i 0, i 1, eq_ix2 i⟩
  rw [val_main_v6_apply, val_main_v3_apply, val_main_v5_apply, val_main_v4_apply, bidx_eq, linear_ix2]
  refine congrArg₂ (· + ·) (Finset.sum_congr rfl fun k _ => ?_) rfl
  rw [lidx_eq, val_main_v2_apply, ridx_eq, val_main_v1_apply, val_main_v0_apply, sidx_eq]
  rfl

end Cert.DequantLinear.Ref

end
-- ==== Proof.lean ====
/- A linear layer over weights stored as integer-valued entries with one scale per output channel:
   `y (i, j) = Σ_k x (i, k) · (w (j, k) · s (j, 0)) + b j` for 4096 tokens, 4096 input features and 11008 output channels.

   The kernel tiles the output 8 × 43 into blocks of 512 tokens by 256 channels. At each tile it scales the 256 weight rows by
   their scales, rounds both operands to a narrower format, contracts the tokens' features against the scaled rows (both
   operands along their feature axis, no transpose materialized) into a zero accumulator and adds the tile's biases. The
   reference scales the whole weight, transposes it, contracts once and adds the bias broadcast over tokens. At the ideal
   values a change of format is the identity and both contractions are the plain sum over the 4096 features, so both
   programs compute the same function entry by entry; the scale stays inside the sum on both sides, so no factor crosses a
   sum and finiteness of the inputs is never used.

   Spec.lean states the layer; RefValue.lean reads the reference's stages down to it; Payload.lean reads one tile's
   arithmetic at an element; Blocks.lean places the tiles in the output array and shows they cover it. The ideal pass
   rewrote nothing, so the kernel's idealization is its own text and that conjunct is trivial. -/
import proofs.«160306_j29884382445885_1_alg».proof.Defs
import proofs.«160306_j29884382445885_1_alg».proof.Proof.Gen.Kernel
import proofs.«160306_j29884382445885_1_alg».proof.Proof.Gen.Kernel.Skeleton
import proofs.«160306_j29884382445885_1_alg».proof.Proof.Gen.Kernel.Launch
import proofs.«160306_j29884382445885_1_alg».proof.Proof.Gen.Kernel.Points
import proofs.«160306_j29884382445885_1_alg».proof.Proof.Gen.Kernel.Frame
import proofs.«160306_j29884382445885_1_alg».proof.Proof.Gen.KernelIdeal
import proofs.«160306_j29884382445885_1_alg».proof.Proof.Gen.KernelIdeal.Skeleton
import proofs.«160306_j29884382445885_1_alg».proof.Proof.Gen.KernelIdeal.Launch
import proofs.«160306_j29884382445885_1_alg».proof.Proof.Gen.KernelIdeal.Points
import proofs.«160306_j29884382445885_1_alg».proof.Proof.Gen.KernelIdeal.Frame
import proofs.«160306_j29884382445885_1_alg».proof.Proof.Gen.KernelIdeal.Value
import proofs.«160306_j29884382445885_1_alg».proof.Proof.Gen.ReferenceIdeal
import proofs.«160306_j29884382445885_1_alg».proof.Proof.Gen.ReferenceIdeal.Run
import proofs.«160306_j29884382445885_1_alg».proof.Proof.Gen.ReferenceIdeal.Read
import proofs.«160306_j29884382445885_1_alg».proof.Proof.Gen.Pre_finite_inputs
import proofs.«160306_j29884382445885_1_alg».proof.Proof.Blocks
import proofs.«160306_j29884382445885_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the four arguments, the kernel's output array and the reference's result are both the
    dequantized linear layer of those arguments. -/
theorem algebraic : Cert.algebraic_KernelIdeal_ReferenceIdeal := by
  intro m ρ m' ρ' _ hagree
  refine ⟨_, Cert.DequantLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.DequantLinear.Ref.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
